-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S1x4096 : Shape := ⟨2, ![1, 4096]⟩
abbrev S128x2048 : Shape := ⟨2, ![128, 2048]⟩
abbrev S128x1024 : Shape := ⟨2, ![128, 1024]⟩
abbrev S128x4096 : Shape := ⟨2, ![128, 4096]⟩

abbrev nBuf : Space → Nat
  | .hbm => 18
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S2048x4096, .bf16⟩
  | .hbm, ⟨14, _⟩ => ⟨S4096, .f32⟩
  | .hbm, ⟨15, _⟩ => ⟨S1x4096, .f32⟩
  | .hbm, ⟨16, _⟩ => ⟨S8192x1024, .f32⟩
  | .hbm, ⟨17, _⟩ => ⟨S8192x1024, .f32⟩
  | .local _ .vmem, ⟨0, _⟩ => ⟨S128x2048, .f32⟩
  | .local _ .vmem, ⟨1, _⟩ => ⟨S128x2048, .f32⟩
  | .local _ .vmem, ⟨2, _⟩ => ⟨S2048x4096, .bf16⟩
  | .local _ .vmem, ⟨3, _⟩ => ⟨S1x4096, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S128x1024_S128x1024_0_0 : ∀ a, (![0, 0] : Fin 2 → Nat) a + S128x1024.size a ≤ S128x1024.size a
  h_S128x1024 : 0 < S128x1024.numel
  dot_S128x2048_S2048x4096_S128x4096_1_0_0_1_n_n_wf : DotDims.WF S128x2048 S2048x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S8192x1024.size a
  hwx0_3 : ∀ i : grid0.Coords, EltTy.bits .f32 = 32 ∨ (Rect.block (s := S8192x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S8192x1024.size a
  hwx0_4 : ∀ i : grid0.Coords, EltTy.bits .f32 = 32 ∨ (Rect.block (s := S8192x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S8192x1024.size a
  hwx0_5 : ∀ i : grid0.Coords, EltTy.bits .f32 = 32 ∨ (Rect.block (s := S8192x1024) S128x1024.size (cc0_transform_5 i) (hinb0_5 i)).WholeWords (EltTy.packing .f32)

variable [Facts₀]

def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S128x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.RegionBits.lean ====
/-
  The run of the fused LSTM cell's program up to and through its one kernel region.

  @main first builds, on the host, the row-wise concatenation [x | h] (8192 x 2048), the column-wise
  concatenation of the four gate weight matrices narrowed to bf16 (2048 x 4096), and the concatenated bias
  reshaped to one row (1 x 4096); the region then walks 64 grid points, point t seeing rows 128 t .. 128 t + 127
  of [x | h] and of the cell state, the whole weight matrix and the whole bias row, and writing rows
  128 t .. 128 t + 127 of the new hidden state (window 4) and of the new cell state (window 5).

  Here: the buffers' contents when the region is entered (`V`: the host operations folded over the start
  memory; the eleven arguments are untouched by them), each window's block at a point (`iblk`), what the body
  leaves in the two output blocks as one function of the four input blocks (`outHidden`, `outCell`: each output
  block is stored whole, once), the body's triple, the pipeline's proof data, and the run: every array of the
  region ends at what the proof data says, every other buffer as the region found it. The frame claim (the
  eleven arguments end unchanged) is read off that.
-/
import proofs.«151887_j27736898798344_1_alg».proof.Proof.Gen.Kernel.Launch
import proofs.«151887_j27736898798344_1_alg».proof.Proof.Gen.Kernel.Skeleton
import proofs.«151887_j27736898798344_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the five host operations (two concatenations of arguments, the
    narrowing of the weights, the bias concatenation and its reshape) applied in order to the start memory. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg1`: the region finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg2`: the region finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg3`: the region finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg4`: the region finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg5`: the region finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg6`: the region finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg7`: the region finds it as the program was started. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg8`: the region finds it as the program was started. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg9`: the region finds it as the program was started. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg10`: the region finds it as the program was started. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved since the last fetch. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved since the last fetch. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved since the last fetch. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved since the last fetch. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from the run's post -/

/-- The eleven arguments end as they started: the cell state (window 3's array) is an input array of the region,
    which the region hands back as it found it; the other ten bypass the region; and no host operation writes any
    of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## What the body leaves in the two output blocks -/

/-- The one rectangle every access of the two output blocks (and of the cell-state block) goes through: the whole block. -/
abbrev rOut : Rect S128x1024 := Rect.unit (s := S128x1024) ![0, 0] S128x1024.size inb_S128x1024_S128x1024_0_0

/-- The new-hidden-state block after the body: one whole-block store of o · tanh(c'). -/
def outHidden (x0 : Vec F S128x2048 .f32) (x1 : Vec F S2048x4096 .bf16) (x2 : Vec F S1x4096 .f32) (x3 : Vec F S128x1024 .f32) : Vec F S128x1024 .f32 :=
  View.canon [⟨rOut, k0_pay3 (View.ld x0 (Rect.unit (s := S128x2048) ![0, 0] S128x2048.size inb_S128x2048_S128x2048_0_0))
    (View.ld x1 (Rect.unit (s := S2048x4096) ![0, 0] S2048x4096.size inb_S2048x4096_S2048x4096_0_0))
    (View.ld x2 (Rect.unit (s := S1x4096) ![0, 0] S1x4096.size inb_S1x4096_S1x4096_0_0)) (View.ld x3 rOut)⟩]

/-- The new-cell-state block after the body: one whole-block store of f · c + i · tanh(g). -/
def outCell (x0 : Vec F S128x2048 .f32) (x1 : Vec F S2048x4096 .bf16) (x2 : Vec F S1x4096 .f32) (x3 : Vec F S128x1024 .f32) : Vec F S128x1024 .f32 :=
  View.canon [⟨rOut, k0_pay2 (View.ld x0 (Rect.unit (s := S128x2048) ![0, 0] S128x2048.size inb_S128x2048_S128x2048_0_0))
    (View.ld x1 (Rect.unit (s := S2048x4096) ![0, 0] S2048x4096.size inb_S2048x4096_S2048x4096_0_0))
    (View.ld x2 (Rect.unit (s := S1x4096) ![0, 0] S1x4096.size inb_S1x4096_S1x4096_0_0)) (View.ld x3 rOut)⟩]

/-- A single whole-block store covers the block. -/
theorem cover_out (p0 : Vec F S128x1024 .f32) (y : S128x1024.Idx) :
    ∃ pc ∈ ([⟨rOut, p0⟩] : List (View.Piece (Elt F) S128x1024 .f32)), y ∈ pc.1.set :=
  View.cover_of_tiled [⟨rOut, p0⟩] S128x1024.size (by rfl) y

/-! ## The body's triple -/

set_option maxHeartbeats 1000000 in
/-- The body on whole staging buffers — the four inputs' at read contents, the two outputs' at anything (it loads them
    before storing, and drops what it loaded) — runs to the end, leaving the inputs' as they were and each output's at
    its one store. -/
theorem sound_kernel (c : Dev nD) (E : Set ℕ) (i : grid0.Coords)
    (arg1 : Memref sig .tc .vmem S128x2048 .f32) (harg1 : arg1.IsWhole) (arg2 : Memref sig .tc .vmem S2048x4096 .bf16) (harg2 : arg2.IsWhole)
    (arg3 : Memref sig .tc .vmem S1x4096 .f32) (harg3 : arg3.IsWhole) (arg4 : Memref sig .tc .vmem S128x1024 .f32) (harg4 : arg4.IsWhole)
    (arg5 : Memref sig .tc .vmem S128x1024 .f32) (harg5 : arg5.IsWhole) (arg6 : Memref sig .tc .vmem S128x1024 .f32) (harg6 : arg6.IsWhole)
    (x0 : Vec F S128x2048 .f32) (x1 : Vec F S2048x4096 .bf16) (x2 : Vec F S1x4096 .f32) (x3 : Vec F S128x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outHidden x0 x1 x2 x3)
            ∗ owns (c : Thread nD τ) arg6 fullShare (outCell x0 x1 x2 x3)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  iexists _; isplitr
  swap; · iexact H5
  ipureintro
  exact View.read_writes_eq_canon _ _ _ (cover_out _)

/-! ## The pipeline's proof data -/

/-- The proof data of the region on core `c`: the arrays as the region finds them; after the body at point `t` each
    input's buffer at its block, the hidden-state buffer at `outHidden` and the cell-state buffer at `outCell` of the
    point's four input blocks; nothing carried between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outHidden (iblk m c 0 t) (iblk m c 1 t) (iblk m c 2 t) (iblk m c 3 t)
    | ⟨5, _⟩ => outCell (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_hidden (c : Dev nD) (t : Fin cfg0.N) :
    (dats m 0 c).after 4 t = outHidden (iblk m c 0 t) (iblk m c 1 t) (iblk m c 2 t) (iblk m c 3 t) := by dsimp only [dats]
theorem after_cell (c : Dev nD) (t : Fin cfg0.N) :
    (dats m 0 c).after 5 t = outCell (iblk m c 0 t) (iblk m c 1 t) (iblk m c 2 t) (iblk m c 3 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after_in0, after_in1, after_in2, after_in3, after_hidden, after_cell]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the region at what the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its eleven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Region

end
-- ==== Proof.RegionIdeal.lean ====
/-
  The run of the fused LSTM cell's program up to and through its one kernel region.

  @main first builds, on the host, the row-wise concatenation [x | h] (8192 x 2048), the column-wise
  concatenation of the four gate weight matrices narrowed to bf16 (2048 x 4096), and the concatenated bias
  reshaped to one row (1 x 4096); the region then walks 64 grid points, point t seeing rows 128 t .. 128 t + 127
  of [x | h] and of the cell state, the whole weight matrix and the whole bias row, and writing rows
  128 t .. 128 t + 127 of the new hidden state (window 4) and of the new cell state (window 5).

  Here: the buffers' contents when the region is entered (`V`: the host operations folded over the start
  memory; the eleven arguments are untouched by them), each window's block at a point (`iblk`), what the body
  leaves in the two output blocks as one function of the four input blocks (`outHidden`, `outCell`: each output
  block is stored whole, once), the body's triple, the pipeline's proof data, and the run: every array of the
  region ends at what the proof data says, every other buffer as the region found it. The frame claim (the
  eleven arguments end unchanged) is read off that.
-/
import proofs.«151887_j27736898798344_1_alg».proof.Proof.Gen.KernelIdeal.Launch
import proofs.«151887_j27736898798344_1_alg».proof.Proof.Gen.KernelIdeal.Skeleton
import proofs.«151887_j27736898798344_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the five host operations (two concatenations of arguments, the
    narrowing of the weights, the bias concatenation and its reshape) applied in order to the start memory. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg1`: the region finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg2`: the region finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg3`: the region finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg4`: the region finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg5`: the region finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg6`: the region finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg7`: the region finds it as the program was started. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg8`: the region finds it as the program was started. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg9`: the region finds it as the program was started. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes `main_arg10`: the region finds it as the program was started. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved since the last fetch. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved since the last fetch. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved since the last fetch. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved since the last fetch. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from the run's post -/

/-- The eleven arguments end as they started: the cell state (window 3's array) is an input array of the region,
    which the region hands back as it found it; the other ten bypass the region; and no host operation writes any
    of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## What the body leaves in the two output blocks -/

/-- The one rectangle every access of the two output blocks (and of the cell-state block) goes through: the whole block. -/
abbrev rOut : Rect S128x1024 := Rect.unit (s := S128x1024) ![0, 0] S128x1024.size inb_S128x1024_S128x1024_0_0

/-- The new-hidden-state block after the body: one whole-block store of o · tanh(c'). -/
def outHidden (x0 : Vec F S128x2048 .f32) (x1 : Vec F S2048x4096 .bf16) (x2 : Vec F S1x4096 .f32) (x3 : Vec F S128x1024 .f32) : Vec F S128x1024 .f32 :=
  View.canon [⟨rOut, k0_pay3 (View.ld x0 (Rect.unit (s := S128x2048) ![0, 0] S128x2048.size inb_S128x2048_S128x2048_0_0))
    (View.ld x1 (Rect.unit (s := S2048x4096) ![0, 0] S2048x4096.size inb_S2048x4096_S2048x4096_0_0))
    (View.ld x2 (Rect.unit (s := S1x4096) ![0, 0] S1x4096.size inb_S1x4096_S1x4096_0_0)) (View.ld x3 rOut)⟩]

/-- The new-cell-state block after the body: one whole-block store of f · c + i · tanh(g). -/
def outCell (x0 : Vec F S128x2048 .f32) (x1 : Vec F S2048x4096 .bf16) (x2 : Vec F S1x4096 .f32) (x3 : Vec F S128x1024 .f32) : Vec F S128x1024 .f32 :=
  View.canon [⟨rOut, k0_pay2 (View.ld x0 (Rect.unit (s := S128x2048) ![0, 0] S128x2048.size inb_S128x2048_S128x2048_0_0))
    (View.ld x1 (Rect.unit (s := S2048x4096) ![0, 0] S2048x4096.size inb_S2048x4096_S2048x4096_0_0))
    (View.ld x2 (Rect.unit (s := S1x4096) ![0, 0] S1x4096.size inb_S1x4096_S1x4096_0_0)) (View.ld x3 rOut)⟩]

/-- A single whole-block store covers the block. -/
theorem cover_out (p0 : Vec F S128x1024 .f32) (y : S128x1024.Idx) :
    ∃ pc ∈ ([⟨rOut, p0⟩] : List (View.Piece (Elt F) S128x1024 .f32)), y ∈ pc.1.set :=
  View.cover_of_tiled [⟨rOut, p0⟩] S128x1024.size (by rfl) y

/-! ## The body's triple -/

set_option maxHeartbeats 1000000 in
/-- The body on whole staging buffers — the four inputs' at read contents, the two outputs' at anything (it loads them
    before storing, and drops what it loaded) — runs to the end, leaving the inputs' as they were and each output's at
    its one store. -/
theorem sound_kernel (c : Dev nD) (E : Set ℕ) (i : grid0.Coords)
    (arg1 : Memref sig .tc .vmem S128x2048 .f32) (harg1 : arg1.IsWhole) (arg2 : Memref sig .tc .vmem S2048x4096 .bf16) (harg2 : arg2.IsWhole)
    (arg3 : Memref sig .tc .vmem S1x4096 .f32) (harg3 : arg3.IsWhole) (arg4 : Memref sig .tc .vmem S128x1024 .f32) (harg4 : arg4.IsWhole)
    (arg5 : Memref sig .tc .vmem S128x1024 .f32) (harg5 : arg5.IsWhole) (arg6 : Memref sig .tc .vmem S128x1024 .f32) (harg6 : arg6.IsWhole)
    (x0 : Vec F S128x2048 .f32) (x1 : Vec F S2048x4096 .bf16) (x2 : Vec F S1x4096 .f32) (x3 : Vec F S128x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outHidden x0 x1 x2 x3)
            ∗ owns (c : Thread nD τ) arg6 fullShare (outCell x0 x1 x2 x3)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  iexists _; isplitr
  swap; · iexact H5
  ipureintro
  exact View.read_writes_eq_canon _ _ _ (cover_out _)

/-! ## The pipeline's proof data -/

/-- The proof data of the region on core `c`: the arrays as the region finds them; after the body at point `t` each
    input's buffer at its block, the hidden-state buffer at `outHidden` and the cell-state buffer at `outCell` of the
    point's four input blocks; nothing carried between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outHidden (iblk m c 0 t) (iblk m c 1 t) (iblk m c 2 t) (iblk m c 3 t)
    | ⟨5, _⟩ => outCell (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_hidden (c : Dev nD) (t : Fin cfg0.N) :
    (dats m 0 c).after 4 t = outHidden (iblk m c 0 t) (iblk m c 1 t) (iblk m c 2 t) (iblk m c 3 t) := by dsimp only [dats]
theorem after_cell (c : Dev nD) (t : Fin cfg0.N) :
    (dats m 0 c).after 5 t = outCell (iblk m c 0 t) (iblk m c 1 t) (iblk m c 2 t) (iblk m c 3 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after_in0, after_in1, after_in2, after_in3, after_hidden, after_cell]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the region at what the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its eleven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Region

end
-- ==== Proof.Spec.lean ====
/-
  The LSTM cell, one row and one hidden unit at a time, on the extended reals.

  For a row of the concatenated [x | h] (2048 entries), the 2048 x 4096 matrix of the four gates' weights side by
  side, the 4096 biases and the old cell value c, hidden unit j has the four pre-activations
      z_g = sum_k row k * w (k, 1024 g + j) + b (1024 g + j),   g = 0 (forget), 1 (input), 2 (candidate), 3 (output),
  the new cell value   c' = sigma z_0 * c + sigma z_1 * tanh z_2   and the new hidden value   h' = sigma z_3 * tanh c',
  with sigma x = 1 / (1 + e^(-x)). Both programs compute exactly these, so no law of the extended reals beyond
  the definitions is needed.
-/
import Idealize.ShloMosaic.Lib.ValueIdx
import Idealize.ShloMosaic.PureOps.Ideal.Laws

noncomputable section

open scoped BigOperators

namespace Cert.LstmCell

open Idealize.ShloMosaic Idealize.ShloMosaic.ValueIdx

/-- The weights' shape: 2048 inputs by 4 x 1024 gate columns. -/
abbrev WShape : Shape := ⟨2, ![2048, 4096]⟩

/-- Column `off + j` of the gates' matrix: for `off` = 0, 1024, 2048, 3072 the column of hidden unit `j` in the forget,
    input, candidate and output gate. -/
def gcol (off : Nat) (hoff : off + 1024 ≤ 4096) (j : Fin 1024) : Fin 4096 := ⟨off + j.val, by have := j.isLt; omega⟩

/-- One pre-activation: the row against a column of the weights, plus that column's bias. -/
def preact (row : Fin 2048 → EReal) (w : WShape.Idx → EReal) (b : Fin 4096 → EReal) (q : Fin 4096) : EReal :=
  (∑ k : Fin 2048, row k * w (ix2 k q)) + b q

/-- The new cell value of hidden unit `j`: forget gate times the old value plus input gate times the candidate. -/
def newCell (row : Fin 2048 → EReal) (w : WShape.Idx → EReal) (b : Fin 4096 → EReal) (c : EReal) (j : Fin 1024) : EReal :=
  Ideal.logistic (preact row w b (gcol 0 (by decide) j)) * c
    + Ideal.logistic (preact row w b (gcol 1024 (by decide) j)) * Ideal.tanh (preact row w b (gcol 2048 (by decide) j))

/-- The new hidden value of hidden unit `j`: output gate times tanh of the new cell value. -/
def newHidden (row : Fin 2048 → EReal) (w : WShape.Idx → EReal) (b : Fin 4096 → EReal) (c : EReal) (j : Fin 1024) : EReal :=
  Ideal.logistic (preact row w b (gcol 3072 (by decide) j)) * Ideal.tanh (newCell row w b c j)

/-- The concatenated [x | h]: 8192 rows of 2048. -/
abbrev XhShape : Shape := ⟨2, ![8192, 2048]⟩
/-- A state array (cell or hidden): 8192 rows of 1024 hidden units. -/
abbrev StShape : Shape := ⟨2, ![8192, 1024]⟩

/-- The whole new cell state: entry (r, j) is the cell formula of row r of [x | h] and hidden unit j. -/
def cellArr (xh : XhShape.Idx → EReal) (w : WShape.Idx → EReal) (b : Fin 4096 → EReal) (cs : StShape.Idx → EReal) : StShape.Idx → EReal :=
  fun i => newCell (fun k => xh (ix2 (⟨(i 0).val, (i 0).isLt⟩ : Fin 8192) k)) w b (cs i) ⟨(i 1).val, (i 1).isLt⟩

/-- The whole new hidden state, likewise. -/
def hiddenArr (xh : XhShape.Idx → EReal) (w : WShape.Idx → EReal) (b : Fin 4096 → EReal) (cs : StShape.Idx → EReal) : StShape.Idx → EReal :=
  fun i => newHidden (fun k => xh (ix2 (⟨(i 0).val, (i 0).isLt⟩ : Fin 8192) k)) w b (cs i) ⟨(i 1).val, (i 1).isLt⟩

/-- The float pattern of 1.0 denotes the real 1. -/
theorem one_f32 : Ideal.ofBits .f32 0x3F800000#32 = 1 := by
  simp [Ideal.ofBits, Ideal.ieee, -EReal.coe_mul]; norm_num

/-- The host's spelling of the sigmoid, 1 / (1 + exp (-x)) with the literal 1.0 twice, is the sigmoid. -/
theorem host_sigmoid (x : EReal) :
    (FloatOps.hostDivf (F := Ideal) (φ := .f32) (FloatOps.ofBits .f32 0x3F800000#32)
      (FloatOps.addf (FloatOps.ofBits .f32 0x3F800000#32) (FloatOps.hostUnary .exp (FloatOps.hostNegf x)))) = Ideal.logistic x := by
  show Ideal.div (Ideal.ofBits .f32 0x3F800000#32) (Ideal.ofBits .f32 0x3F800000#32 + Ideal.exp (-x)) = Ideal.div 1 (1 + Ideal.exp (-x))
  rw [one_f32]

end Cert.LstmCell

end
-- ==== Proof.Payload.lean ====
/-
  What the kernel body stores, read at one entry of the 128 x 1024 output block.

  The body's three payloads: the 128 x 4096 pre-activations (the [x | h] block, narrowed, against the whole narrowed
  weight matrix into a zero accumulator, plus the bias row broadcast down the rows); the new cell block, built from
  the column slices [0, 1024), [1024, 2048), [2048, 3072) of the pre-activations and the old cell block; and the new
  hidden block, from the slice [3072, 4096) and tanh of the new cell block. At the exact values narrowing is the
  identity and the matrix unit's product into zero is the plain sum over the 2048 contracted entries, so entry (p, j)
  of the two stored blocks is the cell formula of row p of the [x | h] block and hidden unit j.
-/
import proofs.«151887_j27736898798344_1_alg».proof.Proof.Gen.KernelIdeal.Skeleton
import proofs.«151887_j27736898798344_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.LstmCell

/-! ## The matrix product at an entry -/

theorem lhs_row (i : S128x4096.Idx) (q : dot_S128x2048_S2048x4096_S128x4096_1_0_0_1_n_n.contr.Idx) :
    (dot_S128x2048_S2048x4096_S128x4096_1_0_0_1_n_n.lhsIdx i q 0).val = (i 0).val := by
  unfold DotDims.lhsIdx
  rw [dif_neg (show ¬(0 : Fin S128x2048.rank) ∈ dot_S128x2048_S2048x4096_S128x4096_1_0_0_1_n_n.lhsBatch by decide), dif_pos (show (0 : Fin S128x2048.rank) ∈ dot_S128x2048_S2048x4096_S128x4096_1_0_0_1_n_n.lhsNonContracting by decide)]
  rfl
theorem lhs_contr (i : S128x4096.Idx) (q : dot_S128x2048_S2048x4096_S128x4096_1_0_0_1_n_n.contr.Idx) :
    (dot_S128x2048_S2048x4096_S128x4096_1_0_0_1_n_n.lhsIdx i q 1).val = (q ⟨0, by decide⟩).val :=
  dot_S128x2048_S2048x4096_S128x4096_1_0_0_1_n_n.lhsIdx_val_of_single rfl i q
theorem rhs_contr (i : S128x4096.Idx) (q : dot_S128x2048_S2048x4096_S128x4096_1_0_0_1_n_n.contr.Idx) :
    (dot_S128x2048_S2048x4096_S128x4096_1_0_0_1_n_n.rhsIdx i q 0).val = (q ⟨0, by decide⟩).val :=
  dot_S128x2048_S2048x4096_S128x4096_1_0_0_1_n_n.rhsIdx_val_of_single rfl i q
theorem rhs_col (i : S128x4096.Idx) (q : dot_S128x2048_S2048x4096_S128x4096_1_0_0_1_n_n.contr.Idx) :
    (dot_S128x2048_S2048x4096_S128x4096_1_0_0_1_n_n.rhsIdx i q 1).val = (i 1).val := by
  unfold DotDims.rhsIdx
  rw [dif_neg (show ¬(1 : Fin S2048x4096.rank) ∈ dot_S128x2048_S2048x4096_S128x4096_1_0_0_1_n_n.rhsBatch by decide), dif_pos (show (1 : Fin S2048x4096.rank) ∈ dot_S128x2048_S2048x4096_S128x4096_1_0_0_1_n_n.rhsNonContracting by decide)]
  rfl

/-- The matrix unit's product into a zero accumulator, at entry (p, q): the sum over the 2048 contracted entries of
    row p of the left operand against column q of the right. -/
theorem matmul_entry (l : FVec Ideal S128x2048 .bf16) (r : FVec Ideal S2048x4096 .bf16) (p : Fin 128) (q : Fin 4096) :
    matmul dot_S128x2048_S2048x4096_S128x4096_1_0_0_1_n_n none l r (constant S128x4096 .f32 0x00000000#32) (ix2 p q)
      = ∑ k : Fin 2048, l (ix2 p k) * r (ix2 k q) := by
  simp only [matmul]
  rw [Ideal.matmul_constant_zero_apply, ← Equiv.sum_comp (contrEquiv1 dot_S128x2048_S2048x4096_S128x4096_1_0_0_1_n_n 2048 rfl rfl).symm]
  refine Finset.sum_congr rfl fun k _ => ?_
  have hk := contrEquiv1_symm_val dot_S128x2048_S2048x4096_S128x4096_1_0_0_1_n_n 2048 rfl rfl k
  have el : dot_S128x2048_S2048x4096_S128x4096_1_0_0_1_n_n.lhsIdx (ix2 p q) ((contrEquiv1 dot_S128x2048_S2048x4096_S128x4096_1_0_0_1_n_n 2048 rfl rfl).symm k) = ix2 p k := funext fun a => Fin.ext (by
    match a with
    | ⟨0, _⟩ => exact lhs_row _ _
    | ⟨1, _⟩ => exact (lhs_contr _ _).trans hk)
  have er : dot_S128x2048_S2048x4096_S128x4096_1_0_0_1_n_n.rhsIdx (ix2 p q) ((contrEquiv1 dot_S128x2048_S2048x4096_S128x4096_1_0_0_1_n_n 2048 rfl rfl).symm k) = ix2 k q := funext fun a => Fin.ext (by
    match a with
    | ⟨0, _⟩ => exact (rhs_contr _ _).trans hk
    | ⟨1, _⟩ => exact rhs_col _ _)
  rw [el, er]

/-! ## The pre-activations -/

/-- The bias row broadcast down the 128 rows, at entry (p, q): the row's entry q. -/
theorem bias_entry (b : FVec Ideal S1x4096 .f32) (p : Fin 128) (q : Fin 4096) :
    broadcastTo S128x4096 b broadcasts_S1x4096_S128x4096 (ix2 p q) = b (ix2 (0 : Fin 1) q) :=
  broadcastTo_apply b broadcasts_S1x4096_S128x4096 (ix2 p q) (ix2 (0 : Fin 1) q) (fun a => match a with
    | ⟨0, _⟩ => by show 0 = if (1 : Nat) = 1 then 0 else _; rw [if_pos rfl]
    | ⟨1, _⟩ => by show q.val = if (4096 : Nat) = 1 then 0 else q.val; rw [if_neg (by decide)])

/-- Entry (p, q) of the pre-activation block: row p of the [x | h] block against column q of the weights, plus bias q. -/
theorem preact_entry (x0 : Vec Ideal S128x2048 .f32) (x1 : Vec Ideal S2048x4096 .bf16) (x2 : Vec Ideal S1x4096 .f32)
    (p : Fin 128) (q : Fin 4096) :
    k0_pay1 (F := Ideal) x0 x1 x2 (ix2 p q) = preact (fun k => x0 (ix2 p k)) x1 (fun q => x2 (ix2 (0 : Fin 1) q)) q := by
  unfold k0_pay1 preact
  rw [shapeCast_self, shapeCast_self, shapeCast_self, addf_apply, matmul_entry, bias_entry]
  rfl

/-- A column slice of the pre-activation block at (p, j): the block at (p, off + j). -/
theorem gate_slice (v : FVec Ideal S128x4096 .f32) (off : Nat) (hoff : off + 1024 ≤ 4096) (h : S128x4096.Slices ![0, off] S128x1024)
    (p : Fin 128) (j : Fin 1024) :
    extractStridedSlice S128x1024 ![0, off] v h (ix2 p j) = v (ix2 p (gcol off hoff j)) :=
  extractStridedSlice_apply ![0, off] v h (ix2 p j) (ix2 p (gcol off hoff j)) (fun a => match a with
    | ⟨0, _⟩ => by show p.val = 0 + p.val; omega
    | ⟨1, _⟩ => rfl)

/-! ## The two stored blocks -/

/-- Entry (p, j) of the stored new-cell block. -/
theorem cell_entry (x0 : Vec Ideal S128x2048 .f32) (x1 : Vec Ideal S2048x4096 .bf16) (x2 : Vec Ideal S1x4096 .f32)
    (x3 : Vec Ideal S128x1024 .f32) (p : Fin 128) (j : Fin 1024) :
    k0_pay2 (F := Ideal) x0 x1 x2 x3 (ix2 p j)
      = newCell (fun k => x0 (ix2 p k)) x1 (fun q => x2 (ix2 (0 : Fin 1) q)) (x3 (ix2 p j)) j := by
  unfold k0_pay2 newCell
  rw [addf_apply, mulf_apply, mulf_apply]
  show Ideal.logistic (extractStridedSlice S128x1024 ![0, 0] (k0_pay1 x0 x1 x2) _ (ix2 p j)) * x3 (ix2 p j)
      + Ideal.logistic (extractStridedSlice S128x1024 ![0, 1024] (k0_pay1 x0 x1 x2) _ (ix2 p j))
        * Ideal.tanh (extractStridedSlice S128x1024 ![0, 2048] (k0_pay1 x0 x1 x2) _ (ix2 p j)) = _
  rw [gate_slice _ 0 (by decide), gate_slice _ 1024 (by decide), gate_slice _ 2048 (by decide),
    preact_entry, preact_entry, preact_entry]

/-- Entry (p, j) of the stored new-hidden block. -/
theorem hidden_entry (x0 : Vec Ideal S128x2048 .f32) (x1 : Vec Ideal S2048x4096 .bf16) (x2 : Vec Ideal S1x4096 .f32)
    (x3 : Vec Ideal S128x1024 .f32) (p : Fin 128) (j : Fin 1024) :
    k0_pay3 (F := Ideal) x0 x1 x2 x3 (ix2 p j)
      = newHidden (fun k => x0 (ix2 p k)) x1 (fun q => x2 (ix2 (0 : Fin 1) q)) (x3 (ix2 p j)) j := by
  unfold k0_pay3 newHidden
  rw [mulf_apply]
  show Ideal.logistic (extractStridedSlice S128x1024 ![0, 3072] (k0_pay1 x0 x1 x2) _ (ix2 p j))
      * Ideal.tanh (k0_pay2 x0 x1 x2 x3 (ix2 p j)) = _
  rw [gate_slice _ 3072 (by decide), preact_entry, cell_entry]

end Cert.KernelIdeal.Payload

end
-- ==== Proof.FinalIdeal.lean ====
/-
  The two result arrays of the kernel's program after its run, each as one function of the eleven arguments.

  The region finds [x | h] (window 0), the narrowed weights (window 1), the bias row (window 2) and the cell state
  (window 3) as the host operations left them: the concatenations of the arguments, the narrowing the identity at
  the exact values, the bias row's entry (0, q) the concatenated bias q. Point t reads rows 128 t .. 128 t + 127
  of [x | h] and of the cell state, all of the weights and the bias row, and writes rows 128 t .. 128 t + 127 of the
  two results; entry (p, j) of what it writes is the cell formula of row 128 t + p and hidden unit j, that is, block t
  of the whole-array cell and hidden functions. The 64 blocks tile the 8192 rows (row r lies in block r / 128), so
  each result array ends holding that function everywhere.
-/
import proofs.«151887_j27736898798344_1_alg».proof.Proof.RegionIdeal
import proofs.«151887_j27736898798344_1_alg».proof.Proof.Payload
import proofs.«151887_j27736898798344_1_alg».proof.Proof.Spec
import Idealize.ShloMosaic.Lib.Pipeline.Value
import Idealize.ShloMosaic.Lib.StableHlo.Run
import Idealize.ShloMosaic.Lib.ValueIdx

noncomputable section

open scoped BigOperators

namespace Cert.KernelIdeal.Final

open Cert.KernelIdeal Cert.KernelIdeal.Gen Cert.KernelIdeal.Region Idealize.ShloMosaic Idealize.ShloMosaic.TcCoe Idealize.SL.Sem
open Idealize.ShloMosaic.StableHlo Idealize.ShloMosaic.ValueIdx Cert.LstmCell
open Idealize.ShloMosaic.Pipeline (Dat)

variable (m : (ℓ : Loc nD τ sig) → Buf (Elt Ideal) ℓ) (ρ : Dev nD → PrngReg)

/-! ## The arrays the region reads, as the host operations left them -/

/-- [x | h]: the two 8192 x 1024 arguments side by side. -/
abbrev xhArr (c : Dev nD) : S8192x2048.Idx → EReal :=
  concatenate S8192x2048 1 [⟨S8192x1024, (m ((c : Thread nD τ).loc main_arg0))⟩, ⟨S8192x1024, (m ((c : Thread nD τ).loc main_arg1))⟩] concatenates_S8192x1024_S8192x1024_S8192x2048_d1
/-- The four gates' weights side by side. -/
abbrev wArr (c : Dev nD) : S2048x4096.Idx → EReal :=
  concatenate S2048x4096 1 [⟨S2048x1024, (m ((c : Thread nD τ).loc main_arg3))⟩, ⟨S2048x1024, (m ((c : Thread nD τ).loc main_arg5))⟩, ⟨S2048x1024, (m ((c : Thread nD τ).loc main_arg7))⟩, ⟨S2048x1024, (m ((c : Thread nD τ).loc main_arg9))⟩] concatenates_S2048x1024_S2048x1024_S2048x1024_S2048x1024_S2048x4096_d1
/-- The four gates' biases end to end. -/
abbrev bArr (c : Dev nD) : S4096.Idx → EReal :=
  concatenate S4096 0 [⟨S1024, (m ((c : Thread nD τ).loc main_arg4))⟩, ⟨S1024, (m ((c : Thread nD τ).loc main_arg6))⟩, ⟨S1024, (m ((c : Thread nD τ).loc main_arg8))⟩, ⟨S1024, (m ((c : Thread nD τ).loc main_arg10))⟩] concatenates_S1024_S1024_S1024_S1024_S4096_d0

theorem V_xh (c : Dev nD) : (V m c main_v0 : S8192x2048.Idx → EReal) = xhArr m c := by
  dsimp only [V, hostOps0]; after_results
  try rfl

theorem V_w (c : Dev nD) : (V m c main_v2 : S2048x4096.Idx → EReal) = wArr m c := by
  dsimp only [V, hostOps0]; after_results
  try rfl

theorem V_brow (c : Dev nD) : (V m c main_v4 : S1x4096.Idx → EReal) = shapeCast S1x4096 (bArr m c) shapeCasts_S4096_S1x4096 := by
  dsimp only [V, hostOps0]; after_results
  try rfl

/-- The bias row's entry (0, q) is the concatenated bias q. -/
theorem V_b (c : Dev nD) (q : Fin 4096) : (V m c main_v4 : S1x4096.Idx → EReal) (ix2 (0 : Fin 1) q) = bArr m c (ix1 q) := by
  rw [V_brow]
  refine shapeCast_apply _ _ _ _ ?_
  rw [Shape.rowMajor_val_one, Shape.rowMajor_val_two]
  show q.val = 0 * 4096 + q.val
  omega

/-! ## The windows' blocks, read at an entry -/

theorem hz : (![0, 0] : Fin 2 → Nat) = fun _ => 0 := funext fun a => by fin_cases a <;> rfl

theorem t_lt (t : Fin cfg0.N) : t.val < 64 := lt_of_lt_of_eq t.isLt N_0

/-- The index maps over the grid: windows 0, 3, 4, 5 are on row block t, column block 0; windows 1, 2 on block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Entry y of point t's [x | h] block is [x | h] at row 128 t + y 0, column y 1. -/
theorem read_xh (c : Dev nD) (t : Fin cfg0.N) (y : S128x2048.Idx) (i : S8192x2048.Idx)
    (h0 : (i 0).val = t.val * 128 + (y 0).val) (h1 : (i 1).val = (y 1).val) :
    iblk m c 0 t y = (V m c main_v0 : S8192x2048.Idx → EReal) i := by
  show (V m c main_v0 : S8192x2048.Idx → EReal) (((cfg0.win 0).blk t).view.emb y) = (V m c main_v0 : S8192x2048.Idx → EReal) i
  refine congrArg _ (funext fun a => Fin.ext ?_)
  obtain ⟨e0, e1, -⟩ := idx_facts t
  match a with
  | ⟨0, _⟩ => show win0_0.index t (0 : Fin 2) * 128 + 1 * (y 0).val = (i 0).val; omega
  | ⟨1, _⟩ => show win0_0.index t (1 : Fin 2) * 2048 + 1 * (y 1).val = (i 1).val; omega

/-- Every point's weight block is the whole weight array. -/
theorem read_w (c : Dev nD) (t : Fin cfg0.N) (y : S2048x4096.Idx) :
    iblk m c 1 t y = (V m c main_v2 : S2048x4096.Idx → EReal) y := by
  show (V m c main_v2 : S2048x4096.Idx → EReal) (((cfg0.win 1).blk t).view.emb y) = (V m c main_v2 : S2048x4096.Idx → EReal) y
  refine congrArg _ (funext fun a => Fin.ext ?_)
  obtain ⟨-, -, e0, e1, -⟩ := idx_facts t
  match a with
  | ⟨0, _⟩ => show win0_1.index t (0 : Fin 2) * 2048 + 1 * (y 0).val = (y 0).val; omega
  | ⟨1, _⟩ => show win0_1.index t (1 : Fin 2) * 4096 + 1 * (y 1).val = (y 1).val; omega

/-- Every point's bias block is the whole bias row. -/
theorem read_b (c : Dev nD) (t : Fin cfg0.N) (y : S1x4096.Idx) :
    iblk m c 2 t y = (V m c main_v4 : S1x4096.Idx → EReal) y := by
  show (V m c main_v4 : S1x4096.Idx → EReal) (((cfg0.win 2).blk t).view.emb y) = (V m c main_v4 : S1x4096.Idx → EReal) y
  refine congrArg _ (funext fun a => Fin.ext ?_)
  obtain ⟨-, -, -, -, e0, e1, -⟩ := idx_facts t
  match a with
  | ⟨0, _⟩ => show win0_2.index t (0 : Fin 2) * 1 + 1 * (y 0).val = (y 0).val; omega
  | ⟨1, _⟩ => show win0_2.index t (1 : Fin 2) * 4096 + 1 * (y 1).val = (y 1).val; omega

/-- Entry y of point t's cell-state block is the cell state at row 128 t + y 0, column y 1. -/
theorem read_cs (c : Dev nD) (t : Fin cfg0.N) (y : S128x1024.Idx) (i : S8192x1024.Idx)
    (h0 : (i 0).val = t.val * 128 + (y 0).val) (h1 : (i 1).val = (y 1).val) :
    iblk m c 3 t y = (V m c main_arg2 : S8192x1024.Idx → EReal) i := by
  show (V m c main_arg2 : S8192x1024.Idx → EReal) (((cfg0.win 3).blk t).view.emb y) = (V m c main_arg2 : S8192x1024.Idx → EReal) i
  refine congrArg _ (funext fun a => Fin.ext ?_)
  obtain ⟨-, -, -, -, -, -, e0, e1, -⟩ := idx_facts t
  match a with
  | ⟨0, _⟩ => show win0_3.index t (0 : Fin 2) * 128 + 1 * (y 0).val = (i 0).val; omega
  | ⟨1, _⟩ => show win0_3.index t (1 : Fin 2) * 1024 + 1 * (y 1).val = (i 1).val; omega

/-! ## A stored block is a block of the whole-array function -/

/-- Over any four blocks whose entries are those of the arrays at the matching rows, entry j of the stored cell block
    is the whole cell function at the array entry i under j. -/
theorem cell_of_blocks (x0 : Vec Ideal S128x2048 .f32) (x1 : Vec Ideal S2048x4096 .bf16) (x2 : Vec Ideal S1x4096 .f32) (x3 : Vec Ideal S128x1024 .f32)
    (xh : S8192x2048.Idx → EReal) (w : S2048x4096.Idx → EReal) (b : Fin 4096 → EReal) (cs : S8192x1024.Idx → EReal)
    (j : S128x1024.Idx) (i : S8192x1024.Idx)
    (hrow : ∀ k : Fin 2048, x0 (ix2 (⟨(j 0).val, (j 0).isLt⟩ : Fin 128) k) = xh (ix2 (⟨(i 0).val, (i 0).isLt⟩ : Fin 8192) k))
    (hw : x1 = w) (hb : ∀ q : Fin 4096, x2 (ix2 (0 : Fin 1) q) = b q) (hc : x3 j = cs i) (hcol : (j 1).val = (i 1).val) :
    k0_pay2 (F := Ideal) x0 x1 x2 x3 j = cellArr xh w b cs i := by
  subst hw
  have ej : j = ix2 (⟨(j 0).val, (j 0).isLt⟩ : Fin 128) (⟨(j 1).val, (j 1).isLt⟩ : Fin 1024) := eq_ix2 j
  have ecol : (⟨(j 1).val, (j 1).isLt⟩ : Fin 1024) = ⟨(i 1).val, (i 1).isLt⟩ := Fin.ext hcol
  rw [ej, Payload.cell_entry, ← ej, hc]
  unfold cellArr
  rw [ecol]
  exact congrArg (fun (r : Fin 2048 → EReal) => newCell r x1 _ (cs i) _) (funext hrow) |>.trans
    (congrArg (fun (bb : Fin 4096 → EReal) => newCell _ x1 bb (cs i) _) (funext hb))

/-- The same for the stored hidden block. -/
theorem hidden_of_blocks (x0 : Vec Ideal S128x2048 .f32) (x1 : Vec Ideal S2048x4096 .bf16) (x2 : Vec Ideal S1x4096 .f32) (x3 : Vec Ideal S128x1024 .f32)
    (xh : S8192x2048.Idx → EReal) (w : S2048x4096.Idx → EReal) (b : Fin 4096 → EReal) (cs : S8192x1024.Idx → EReal)
    (j : S128x1024.Idx) (i : S8192x1024.Idx)
    (hrow : ∀ k : Fin 2048, x0 (ix2 (⟨(j 0).val, (j 0).isLt⟩ : Fin 128) k) = xh (ix2 (⟨(i 0).val, (i 0).isLt⟩ : Fin 8192) k))
    (hw : x1 = w) (hb : ∀ q : Fin 4096, x2 (ix2 (0 : Fin 1) q) = b q) (hc : x3 j = cs i) (hcol : (j 1).val = (i 1).val) :
    k0_pay3 (F := Ideal) x0 x1 x2 x3 j = hiddenArr xh w b cs i := by
  subst hw
  have ej : j = ix2 (⟨(j 0).val, (j 0).isLt⟩ : Fin 128) (⟨(j 1).val, (j 1).isLt⟩ : Fin 1024) := eq_ix2 j
  have ecol : (⟨(j 1).val, (j 1).isLt⟩ : Fin 1024) = ⟨(i 1).val, (i 1).isLt⟩ := Fin.ext hcol
  rw [ej, Payload.hidden_entry, ← ej, hc]
  unfold hiddenArr
  rw [ecol]
  exact congrArg (fun (r : Fin 2048 → EReal) => newHidden r x1 _ (cs i) _) (funext hrow) |>.trans
    (congrArg (fun (bb : Fin 4096 → EReal) => newHidden _ x1 bb (cs i) _) (funext hb))

/-- The whole-array cell function of the arrays as the region finds them. -/
abbrev cellV (c : Dev nD) : S8192x1024.Idx → EReal :=
  cellArr (V m c main_v0) (V m c main_v2) (fun q => (V m c main_v4 : S1x4096.Idx → EReal) (ix2 (0 : Fin 1) q)) (V m c main_arg2)
/-- The whole-array hidden function of the arrays as the region finds them. -/
abbrev hiddenV (c : Dev nD) : S8192x1024.Idx → EReal :=
  hiddenArr (V m c main_v0) (V m c main_v2) (fun q => (V m c main_v4 : S1x4096.Idx → EReal) (ix2 (0 : Fin 1) q)) (V m c main_arg2)

/-- What point t writes back to the cell-state array is block t of the whole cell function. -/
theorem flushed_cell (c : Dev nD) (t : Fin cfg0.N) :
    (dats m 0 c).flushed 5 t = ((cfg0.win 5).blk t).view.read (Elt Ideal) (cellV m c) := by
  show (cfg0.win 5).cut (grid0.coords t) ((dats m 0 c).after 5 t) = _
  rw [after_cell]
  unfold outCell
  rw [View.canon_unit_zero hz]
  simp only [View.ld_unit_zero (S := S128x2048) hz, View.ld_unit_zero (S := S2048x4096) hz, View.ld_unit_zero (S := S1x4096) hz,
    View.ld_unit_zero (S := S128x1024) hz]
  funext j
  have ht := t_lt t
  obtain ⟨-, -, -, -, -, -, -, -, e40, e41, e50, e51⟩ := idx_facts t
  have hi0 : ((((cfg0.win 5).blk t).view.emb j) 0).val = t.val * 128 + (j 0).val := by
    show win0_5.index t (0 : Fin 2) * 128 + 1 * (j 0).val = _; omega
  have hi1 : ((((cfg0.win 5).blk t).view.emb j) 1).val = (j 1).val := by
    show win0_5.index t (1 : Fin 2) * 1024 + 1 * (j 1).val = _; omega
  show k0_pay2 (F := Ideal) (iblk m c 0 t) (iblk m c 1 t) (iblk m c 2 t) (iblk m c 3 t) j = cellV m c (((cfg0.win 5).blk t).view.emb j)
  exact cell_of_blocks (iblk m c 0 t) (iblk m c 1 t) (iblk m c 2 t) (iblk m c 3 t) (V m c main_v0) (V m c main_v2)
    (fun q => (V m c main_v4 : S1x4096.Idx → EReal) (ix2 (0 : Fin 1) q)) (V m c main_arg2) j (((cfg0.win 5).blk t).view.emb j)
    (fun k => read_xh m c t (ix2 (⟨(j 0).val, (j 0).isLt⟩ : Fin 128) k)
      (ix2 (⟨((((cfg0.win 5).blk t).view.emb j) 0).val, ((((cfg0.win 5).blk t).view.emb j) 0).isLt⟩ : Fin 8192) k) hi0 rfl)
    (funext fun y => read_w m c t y)
    (fun q => read_b m c t (ix2 (0 : Fin 1) q))
    (read_cs m c t j _ hi0 hi1)
    hi1.symm

/-- What point t writes back to the hidden-state array is block t of the whole hidden function. -/
theorem flushed_hidden (c : Dev nD) (t : Fin cfg0.N) :
    (dats m 0 c).flushed 4 t = ((cfg0.win 4).blk t).view.read (Elt Ideal) (hiddenV m c) := by
  show (cfg0.win 4).cut (grid0.coords t) ((dats m 0 c).after 4 t) = _
  rw [after_hidden]
  unfold outHidden
  rw [View.canon_unit_zero hz]
  simp only [View.ld_unit_zero (S := S128x2048) hz, View.ld_unit_zero (S := S2048x4096) hz, View.ld_unit_zero (S := S1x4096) hz,
    View.ld_unit_zero (S := S128x1024) hz]
  funext j
  have ht := t_lt t
  obtain ⟨-, -, -, -, -, -, -, -, e40, e41, e50, e51⟩ := idx_facts t
  have hi0 : ((((cfg0.win 4).blk t).view.emb j) 0).val = t.val * 128 + (j 0).val := by
    show win0_4.index t (0 : Fin 2) * 128 + 1 * (j 0).val = _; omega
  have hi1 : ((((cfg0.win 4).blk t).view.emb j) 1).val = (j 1).val := by
    show win0_4.index t (1 : Fin 2) * 1024 + 1 * (j 1).val = _; omega
  show k0_pay3 (F := Ideal) (iblk m c 0 t) (iblk m c 1 t) (iblk m c 2 t) (iblk m c 3 t) j = hiddenV m c (((cfg0.win 4).blk t).view.emb j)
  exact hidden_of_blocks (iblk m c 0 t) (iblk m c 1 t) (iblk m c 2 t) (iblk m c 3 t) (V m c main_v0) (V m c main_v2)
    (fun q => (V m c main_v4 : S1x4096.Idx → EReal) (ix2 (0 : Fin 1) q)) (V m c main_arg2) j (((cfg0.win 4).blk t).view.emb j)
    (fun k => read_xh m c t (ix2 (⟨(j 0).val, (j 0).isLt⟩ : Fin 128) k)
      (ix2 (⟨((((cfg0.win 4).blk t).view.emb j) 0).val, ((((cfg0.win 4).blk t).view.emb j) 0).isLt⟩ : Fin 8192) k) hi0 rfl)
    (funext fun y => read_w m c t y)
    (fun q => read_b m c t (ix2 (0 : Fin 1) q))
    (read_cs m c t j _ hi0 hi1)
    hi1.symm

/-! ## The blocks tile the arrays -/

/-- An array entry is in point t's block of window 4 iff its row is in rows 128 t .. 128 t + 127 (and its column anywhere). -/
theorem mem_blk4 (t : Fin cfg0.N) (i : S8192x1024.Idx) :
    i ∈ ((cfg0.win 4).blk t).view.set ↔ ∀ a : Fin 2, win0_4.index t a * S128x1024.size a ≤ (i a).val ∧ (i a).val < win0_4.index t a * S128x1024.size a + S128x1024.size a := by
  show i ∈ ((View.whole main_v5_0).slice (win0_4.rect t)).set ↔ _
  rw [View.set_slice_whole, Rect.mem_set_unit]
  exact Iff.rfl

/-- The 64 blocks of window 4 tile the array: row r lies in block r / 128. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hlt : (i 0).val / 128 < cfg0.N := lt_of_lt_of_eq (by omega : (i 0).val / 128 < 64) N_0.symm
  refine ⟨⟨(i 0).val / 128, hlt⟩, flush0_4 _, ?_⟩
  rw [mem_blk4]
  obtain ⟨-, -, -, -, -, -, -, -, e40, e41, e50, e51⟩ := idx_facts ⟨(i 0).val / 128, hlt⟩
  have hv : (⟨(i 0).val / 128, hlt⟩ : Fin cfg0.N).val = (i 0).val / 128 := rfl
  intro a
  match a with
  | ⟨0, _⟩ =>
    show win0_4.index ⟨(i 0).val / 128, hlt⟩ (0 : Fin 2) * 128 ≤ (i 0).val ∧ (i 0).val < win0_4.index ⟨(i 0).val / 128, hlt⟩ (0 : Fin 2) * 128 + 128
    omega
  | ⟨1, _⟩ =>
    show win0_4.index ⟨(i 0).val / 128, hlt⟩ (1 : Fin 2) * 1024 ≤ (i 1).val ∧ (i 1).val < win0_4.index ⟨(i 0).val / 128, hlt⟩ (1 : Fin 2) * 1024 + 1024
    omega

/-- An array entry is in point t's block of window 5 iff its row is in rows 128 t .. 128 t + 127 (and its column anywhere). -/
theorem mem_blk5 (t : Fin cfg0.N) (i : S8192x1024.Idx) :
    i ∈ ((cfg0.win 5).blk t).view.set ↔ ∀ a : Fin 2, win0_5.index t a * S128x1024.size a ≤ (i a).val ∧ (i a).val < win0_5.index t a * S128x1024.size a + S128x1024.size a := by
  show i ∈ ((View.whole main_v5_1).slice (win0_5.rect t)).set ↔ _
  rw [View.set_slice_whole, Rect.mem_set_unit]
  exact Iff.rfl

/-- The 64 blocks of window 5 tile the array: row r lies in block r / 128. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hlt : (i 0).val / 128 < cfg0.N := lt_of_lt_of_eq (by omega : (i 0).val / 128 < 64) N_0.symm
  refine ⟨⟨(i 0).val / 128, hlt⟩, flush0_5 _, ?_⟩
  rw [mem_blk5]
  obtain ⟨-, -, -, -, -, -, -, -, e40, e41, e50, e51⟩ := idx_facts ⟨(i 0).val / 128, hlt⟩
  have hv : (⟨(i 0).val / 128, hlt⟩ : Fin cfg0.N).val = (i 0).val / 128 := rfl
  intro a
  match a with
  | ⟨0, _⟩ =>
    show win0_5.index ⟨(i 0).val / 128, hlt⟩ (0 : Fin 2) * 128 ≤ (i 0).val ∧ (i 0).val < win0_5.index ⟨(i 0).val / 128, hlt⟩ (0 : Fin 2) * 128 + 128
    omega
  | ⟨1, _⟩ =>
    show win0_5.index ⟨(i 0).val / 128, hlt⟩ (1 : Fin 2) * 1024 ≤ (i 1).val ∧ (i 1).val < win0_5.index ⟨(i 0).val / 128, hlt⟩ (1 : Fin 2) * 1024 + 1024
    omega

/-! ## The result arrays after the run -/

/-- The cell-state array ends holding the whole cell function of the arrays as the region found them. -/
theorem final_cell (c : Dev nD) : (dats m 0 c).arrAt 5 cfg0.N = cellV m c :=
  (dats m 0 c).arrAt_eq_of_cover 5 (cellV m c) (fun t _ => flushed_cell m c t) cover5

/-- The hidden-state array likewise. -/
theorem final_hidden (c : Dev nD) : (dats m 0 c).arrAt 4 cfg0.N = hiddenV m c :=
  (dats m 0 c).arrAt_eq_of_cover 4 (hiddenV m c) (fun t _ => flushed_hidden m c t) cover4

/-- The concatenated bias as a function of the column. -/
abbrev bVec (c : Dev nD) : Fin 4096 → EReal := fun q => bArr m c (ix1 q)

theorem brow_eq (c : Dev nD) : (fun q : Fin 4096 => (V m c main_v4 : S1x4096.Idx → EReal) (ix2 (0 : Fin 1) q)) = bVec m c :=
  funext (V_b m c)

/-- In terms of the arguments: the region's arrays are the concatenations of the arguments and the cell-state argument. -/
theorem cellV_eq (c : Dev nD) :
    cellV m c = cellArr (xhArr m c) (wArr m c) (bVec m c) (m ((c : Thread nD τ).loc main_arg2)) := by
  show cellArr (V m c main_v0) (V m c main_v2) (fun q => (V m c main_v4 : S1x4096.Idx → EReal) (ix2 (0 : Fin 1) q)) (V m c main_arg2) = _
  rw [brow_eq, V_xh, V_w, V_main_arg2]

theorem hiddenV_eq (c : Dev nD) :
    hiddenV m c = hiddenArr (xhArr m c) (wArr m c) (bVec m c) (m ((c : Thread nD τ).loc main_arg2)) := by
  show hiddenArr (V m c main_v0) (V m c main_v2) (fun q => (V m c main_v4 : S1x4096.Idx → EReal) (ix2 (0 : Fin 1) q)) (V m c main_arg2) = _
  rw [brow_eq, V_xh, V_w, V_main_arg2]

/-- The run, read: the new hidden state and the new cell state at their functions of the arguments, the arguments unchanged. -/
theorem run : θ_run defs (onTc (τ := τ) (main (F := Ideal))) ⟨m, fun _ => 0, ρ⟩ fun r => ∀ c : Dev nD,
      r.2.mem ((c.tc : Thread nD τ).loc main_v5_0) = hiddenArr (xhArr m c) (wArr m c) (bVec m c) (m ((c : Thread nD τ).loc main_arg2))
      ∧ r.2.mem ((c.tc : Thread nD τ).loc main_v5_1) = cellArr (xhArr m c) (wArr m c) (bVec m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 4).trans ((final_hidden m c).trans (hiddenV_eq m c)),
      ((h c).1 5).trans ((final_cell m c).trans (cellV_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Final

end
-- ==== Proof.RefValue.lean ====
/-
  The reference, read at one entry of its two results.

  The reference concatenates [x | h], the four weight matrices and the four biases exactly as the kernel's program
  does, takes ONE 8192 x 2048 by 2048 x 4096 product, adds the bias broadcast down the rows, slices the four gates'
  1024 columns, and combines them pointwise, the sigmoid spelt 1 / (1 + exp (-z)). Read at entry (r, j), the
  product is the sum over the 2048 contracted entries, so the new cell and hidden entries are the cell formula of
  row r of [x | h] and hidden unit j.
-/
import proofs.«151887_j27736898798344_1_alg».proof.Proof.Gen.ReferenceIdeal.Read
import proofs.«151887_j27736898798344_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.LstmCell

variable (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal))

/-- Row `r` of the concatenated [x | h]. -/
abbrev xhRow (r : Fin 8192) : Fin 2048 → EReal := fun k => val_main_v0 (F := Ideal) x0 x1 (ix2 r k)
/-- The concatenated weights. -/
abbrev wts : WShape.Idx → EReal := val_main_v1 (F := Ideal) x3 x5 x7 x9
/-- The concatenated biases. -/
abbrev bias : Fin 4096 → EReal := fun q => val_main_v2 (F := Ideal) x4 x6 x8 x10 (ix1 q)

/-- Entry (r, q) of the pre-activations: row r of [x | h] against column q of the weights, plus bias q. -/
theorem preact_entry (I : S8192x4096.Idx) :
    val_main_v6 (F := Ideal) x0 x1 x3 x4 x5 x6 x7 x8 x9 x10 I
      = preact (xhRow x0 x1 ⟨(I 0).val, (I 0).isLt⟩) (wts x3 x5 x7 x9) (bias x4 x6 x8 x10) ⟨(I 1).val, (I 1).isLt⟩ := by
  rw [val_main_v6_apply, val_main_v3_apply, val_main_v5_apply, val_main_v4_apply]
  have el : ∀ k : Fin 2048, lidx_main_v3 I k = ix2 (⟨(I 0).val, (I 0).isLt⟩ : Fin 8192) k := fun k => funext fun a => by
    match a with
    | ⟨0, _⟩ => rfl
    | ⟨1, _⟩ => rfl
  have er : ∀ k : Fin 2048, ridx_main_v3 I k = ix2 k (⟨(I 1).val, (I 1).isLt⟩ : Fin 4096) := fun k => funext fun a => by
    match a with
    | ⟨0, _⟩ => rfl
    | ⟨1, _⟩ => rfl
  have eb : idx_main_v4 (idx_main_v5 I) = ix1 (⟨(I 1).val, (I 1).isLt⟩ : Fin 4096) := funext fun a => by
    match a with
    | ⟨0, _⟩ => rfl
  simp only [el, er, eb]
  rfl

/-- The four gates' columns: slice `g` of the pre-activations at (r, j) is their entry (r, off + j). -/
theorem gate0 (i : S8192x1024.Idx) :
    val_main_v7 (F := Ideal) x0 x1 x3 x4 x5 x6 x7 x8 x9 x10 i
      = preact (xhRow x0 x1 ⟨(i 0).val, (i 0).isLt⟩) (wts x3 x5 x7 x9) (bias x4 x6 x8 x10) (gcol 0 (by decide) ⟨(i 1).val, (i 1).isLt⟩) := by
  rw [val_main_v7_apply, preact_entry]
  exact congrArg _ (Fin.ext (by show (i 1).val = 0 + (i 1).val; omega))
theorem gate1 (i : S8192x1024.Idx) :
    val_main_v8 (F := Ideal) x0 x1 x3 x4 x5 x6 x7 x8 x9 x10 i
      = preact (xhRow x0 x1 ⟨(i 0).val, (i 0).isLt⟩) (wts x3 x5 x7 x9) (bias x4 x6 x8 x10) (gcol 1024 (by decide) ⟨(i 1).val, (i 1).isLt⟩) := by
  rw [val_main_v8_apply, preact_entry]
  rfl
theorem gate2 (i : S8192x1024.Idx) :
    val_main_v9 (F := Ideal) x0 x1 x3 x4 x5 x6 x7 x8 x9 x10 i
      = preact (xhRow x0 x1 ⟨(i 0).val, (i 0).isLt⟩) (wts x3 x5 x7 x9) (bias x4 x6 x8 x10) (gcol 2048 (by decide) ⟨(i 1).val, (i 1).isLt⟩) := by
  rw [val_main_v9_apply, preact_entry]
  rfl
theorem gate3 (i : S8192x1024.Idx) :
    val_main_v10 (F := Ideal) x0 x1 x3 x4 x5 x6 x7 x8 x9 x10 i
      = preact (xhRow x0 x1 ⟨(i 0).val, (i 0).isLt⟩) (wts x3 x5 x7 x9) (bias x4 x6 x8 x10) (gcol 3072 (by decide) ⟨(i 1).val, (i 1).isLt⟩) := by
  rw [val_main_v10_apply, preact_entry]
  rfl

/-- The three sigmoids, each spelt 1 / (1 + exp (-z)) over its own two copies of the literal 1.0. -/
theorem sig0 (i : S8192x1024.Idx) :
    val_main_v16 (F := Ideal) x0 x1 x3 x4 x5 x6 x7 x8 x9 x10 i = Ideal.logistic (val_main_v7 (F := Ideal) x0 x1 x3 x4 x5 x6 x7 x8 x9 x10 i) := by
  rw [val_main_v16_apply, val_main_v15_apply, val_main_cst_0_apply, val_main_v14_apply, val_main_v13_apply, val_main_cst_apply,
    val_main_v12_apply, val_main_v11_apply]
  exact host_sigmoid _
theorem sig1 (i : S8192x1024.Idx) :
    val_main_v22 (F := Ideal) x0 x1 x3 x4 x5 x6 x7 x8 x9 x10 i = Ideal.logistic (val_main_v8 (F := Ideal) x0 x1 x3 x4 x5 x6 x7 x8 x9 x10 i) := by
  rw [val_main_v22_apply, val_main_v21_apply, val_main_cst_2_apply, val_main_v20_apply, val_main_v19_apply, val_main_cst_1_apply,
    val_main_v18_apply, val_main_v17_apply]
  exact host_sigmoid _
theorem sig3 (i : S8192x1024.Idx) :
    val_main_v28 (F := Ideal) x0 x1 x3 x4 x5 x6 x7 x8 x9 x10 i = Ideal.logistic (val_main_v10 (F := Ideal) x0 x1 x3 x4 x5 x6 x7 x8 x9 x10 i) := by
  rw [val_main_v28_apply, val_main_v27_apply, val_main_cst_4_apply, val_main_v26_apply, val_main_v25_apply, val_main_cst_3_apply,
    val_main_v24_apply, val_main_v23_apply]
  exact host_sigmoid _

/-- Entry i = (r, j) of the reference's new cell state. -/
theorem cell_entry (i : S8192x1024.Idx) :
    val_main_v32 (F := Ideal) x0 x1 x2 x3 x4 x5 x6 x7 x8 x9 x10 i
      = newCell (xhRow x0 x1 ⟨(i 0).val, (i 0).isLt⟩) (wts x3 x5 x7 x9) (bias x4 x6 x8 x10) (x2 i) ⟨(i 1).val, (i 1).isLt⟩ := by
  rw [val_main_v32_apply, val_main_v29_apply, val_main_v31_apply, val_main_v30_apply, sig0, sig1, gate0, gate1, gate2]
  rfl

/-- Entry i = (r, j) of the reference's new hidden state. -/
theorem hidden_entry (i : S8192x1024.Idx) :
    val_main_v34 (F := Ideal) x0 x1 x2 x3 x4 x5 x6 x7 x8 x9 x10 i
      = newHidden (xhRow x0 x1 ⟨(i 0).val, (i 0).isLt⟩) (wts x3 x5 x7 x9) (bias x4 x6 x8 x10) (x2 i) ⟨(i 1).val, (i 1).isLt⟩ := by
  rw [val_main_v34_apply, val_main_v33_apply, sig3, gate3, cell_entry]
  rfl

/-- The reference's new cell state, whole. -/
theorem cell_eq :
    val_main_v32 (F := Ideal) x0 x1 x2 x3 x4 x5 x6 x7 x8 x9 x10
      = cellArr (val_main_v0 (F := Ideal) x0 x1) (wts x3 x5 x7 x9) (bias x4 x6 x8 x10) x2 :=
  funext fun i => cell_entry x0 x1 x2 x3 x4 x5 x6 x7 x8 x9 x10 i

/-- The reference's new hidden state, whole. -/
theorem hidden_eq :
    val_main_v34 (F := Ideal) x0 x1 x2 x3 x4 x5 x6 x7 x8 x9 x10
      = hiddenArr (val_main_v0 (F := Ideal) x0 x1) (wts x3 x5 x7 x9) (bias x4 x6 x8 x10) x2 :=
  funext fun i => hidden_entry x0 x1 x2 x3 x4 x5 x6 x7 x8 x9 x10 i

end Cert.ReferenceIdeal.RefValue

end
-- ==== Proof.lean ====
/-
  The fused LSTM cell against its reference: the certificate's five claims.

  Both programs build [x | h], the four gates' weights side by side and the four biases end to end; the reference
  takes one 8192 x 2048 by 2048 x 4096 product, the kernel 64 products of 128 rows each against the same weights
  (narrowed to bf16, the identity at the exact values), into a zero accumulator. Entry (r, j) of either program's new
  cell state is   sigma z_0 * c + sigma z_1 * tanh z_2   and of its new hidden state   sigma z_3 * tanh c',   with
  z_g = sum_k [x | h] (r, k) * W (k, 1024 g + j) + b (1024 g + j): the kernel's sigmoid is the one operation, the
  reference's the quotient 1 / (1 + exp (-z)), one function on every extended real. No law beyond the definitions
  is needed, so the precondition is never opened.

  The three frames: the kernel's program at the word level and at the exact values is run through its region by
  the same text (the region's run reads every argument back unchanged); the reference is a straight line of host
  operations. The idealization rewrote nothing, so `preserves` is trivial.
-/
import proofs.«151887_j27736898798344_1_alg».proof.Defs
import proofs.«151887_j27736898798344_1_alg».proof.Proof.Gen.Kernel
import proofs.«151887_j27736898798344_1_alg».proof.Proof.Gen.KernelIdeal
import proofs.«151887_j27736898798344_1_alg».proof.Proof.Gen.ReferenceIdeal
import proofs.«151887_j27736898798344_1_alg».proof.Proof.Gen.Pre_finite_inputs
import proofs.«151887_j27736898798344_1_alg».proof.Proof.Gen.ReferenceIdeal.Run
import proofs.«151887_j27736898798344_1_alg».proof.Proof.Gen.ReferenceIdeal.Read
import proofs.«151887_j27736898798344_1_alg».proof.Proof.RegionBits
import proofs.«151887_j27736898798344_1_alg».proof.Proof.RegionIdeal
import proofs.«151887_j27736898798344_1_alg».proof.Proof.FinalIdeal
import proofs.«151887_j27736898798344_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame m ρ

theorem frame_kernel_ideal : Cert.frame_KernelIdeal := fun m ρ _ => Cert.KernelIdeal.Region.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the new hidden state and the new cell state at the same functions of the arguments. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun r h c => ⟨?_, ?_, (h c).2.2⟩)
    (Cert.ReferenceIdeal.Value.run (F := Ideal) m' ρ')
  · obtain ⟨a0, a1, a2, a3, a4, a5, a6, a7, a8, a9, a10⟩ := hagree c
    refine ((h c).1.trans ((Cert.ReferenceIdeal.Read.val_main_v34_eq m' c).trans
      (Cert.ReferenceIdeal.RefValue.hidden_eq _ _ _ _ _ _ _ _ _ _ _))).trans ?_
    rw [a0, a1, a2, a3, a4, a5, a6, a7, a8, a9, a10]
    rfl
  · obtain ⟨a0, a1, a2, a3, a4, a5, a6, a7, a8, a9, a10⟩ := hagree c
    refine ((h c).2.1.trans ((Cert.ReferenceIdeal.Read.val_main_v32_eq _ _ _ _ _ _ _ _ _ _ _).trans
      (Cert.ReferenceIdeal.RefValue.cell_eq _ _ _ _ _ _ _ _ _ _ _))).trans ?_
    rw [a0, a1, a2, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
